-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x640000 : Shape := ⟨2, ![2, 640000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : FVec F S100000x128 .f32) (main_arg2 : FVec F S128x128 .f32) (main_arg3 : FVec F S128 .f32) (main_arg4 : IVec S2x640000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S128 : Shape := ⟨1, ![128]⟩
abbrev S2x640000 : Shape := ⟨2, ![2, 640000]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S1x128 : Shape := ⟨2, ![1, 128]⟩
abbrev S4000x128 : Shape := ⟨2, ![4000, 128]⟩

abbrev nBuf : Space → Nat
  | .hbm => 64
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S2x640000, .i32⟩
  | .hbm, ⟨5, _⟩ => ⟨S100000, .i32⟩
  | .hbm, ⟨6, _⟩ => ⟨S1x640000, .i32⟩
  | .hbm, ⟨7, _⟩ => ⟨S640000, .i32⟩
  | .hbm, ⟨8, _⟩ => ⟨S740000, .i32⟩
  | .hbm, ⟨9, _⟩ => ⟨S1x640000, .i32⟩
  | .hbm, ⟨10, _⟩ => ⟨S640000, .i32⟩
  | .hbm, ⟨11, _⟩ => ⟨S740000, .i32⟩
  | .hbm, ⟨12, _⟩ => ⟨S_, .f32⟩
  | .hbm, ⟨13, _⟩ => ⟨S740000, .f32⟩
  | .hbm, ⟨14, _⟩ => ⟨S_, .f32⟩
  | .hbm, ⟨15, _⟩ => ⟨S100000, .f32⟩
  | .hbm, ⟨16, _⟩ => ⟨S740000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S740000, .i32⟩
  | .hbm, ⟨28, _⟩ => ⟨S740000, .i1⟩
  | .hbm, ⟨29, _⟩ => ⟨S_, .i32⟩
  | .hbm, ⟨30, _⟩ => ⟨S740000, .i32⟩
  | .hbm, ⟨31, _⟩ => ⟨S740000, .i32⟩
  | .hbm, ⟨32, _⟩ => ⟨S740000, .i32⟩
  | .hbm, ⟨33, _⟩ => ⟨S740000x1, .i32⟩
  | .hbm, ⟨34, _⟩ => ⟨S740000, .f32⟩
  | .hbm, ⟨35, _⟩ => ⟨S_, .i32⟩
  | .hbm, ⟨36, _⟩ => ⟨S740000, .i32⟩
  | .hbm, ⟨37, _⟩ => ⟨S740000, .i1⟩
  | .hbm, ⟨38, _⟩ => ⟨S_, .i32⟩
  | .hbm, ⟨39, _⟩ => ⟨S740000, .i32⟩
  | .hbm, ⟨40, _⟩ => ⟨S740000, .i32⟩
  | .hbm, ⟨41, _⟩ => ⟨S740000, .i32⟩
  | .hbm, ⟨42, _⟩ => ⟨S740000x1, .i32⟩
  | .hbm, ⟨43, _⟩ => ⟨S740000, .f32⟩
  | .hbm, ⟨44, _⟩ => ⟨S740000, .f32⟩
  | .hbm, ⟨45, _⟩ => ⟨S_, .i32⟩
  | .hbm, ⟨46, _⟩ => ⟨S740000, .i32⟩
  | .hbm, ⟨47, _⟩ => ⟨S740000, .i1⟩
  | .hbm, ⟨48, _⟩ => ⟨S_, .i32⟩
  | .hbm, ⟨49, _⟩ => ⟨S740000, .i32⟩
  | .hbm, ⟨50, _⟩ => ⟨S740000, .i32⟩
  | .hbm, ⟨51, _⟩ => ⟨S740000, .i32⟩
  | .hbm, ⟨52, _⟩ => ⟨S740000x1, .i32⟩
  | .hbm, ⟨53, _⟩ => ⟨S740000x128, .f32⟩
  | .hbm, ⟨54, _⟩ => ⟨S740000x1, .f32⟩
  | .hbm, ⟨55, _⟩ => ⟨S740000x128, .f32⟩
  | .hbm, ⟨56, _⟩ => ⟨S740000x128, .f32⟩
  | .hbm, ⟨57, _⟩ => ⟨S_, .f32⟩
  | .hbm, ⟨58, _⟩ => ⟨S100000x128, .f32⟩
  | .hbm, ⟨59, _⟩ => ⟨S740000x1, .i32⟩
  | .hbm, ⟨60, _⟩ => ⟨S100000x128, .f32⟩
  | .hbm, ⟨61, _⟩ => ⟨S128x128, .f32⟩
  | .hbm, ⟨62, _⟩ => ⟨S1x128, .f32⟩
  | .hbm, ⟨63, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S4000x128, .f32⟩
  | .local _ .vmem, ⟨7, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .f32 = 32 ∨ (Rect.block (s := S100000x128) S4000x128.size (cc0_transform_4 i) (hinb0_4 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v42) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v43) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v44) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v45) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x640000 : Shape := ⟨2, ![2, 640000]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S2x640000, .i32⟩
  | .hbm, ⟨5, _⟩ => ⟨S100000, .i32⟩
  | .hbm, ⟨6, _⟩ => ⟨S1x640000, .i32⟩
  | .hbm, ⟨7, _⟩ => ⟨S640000, .i32⟩
  | .hbm, ⟨8, _⟩ => ⟨S740000, .i32⟩
  | .hbm, ⟨9, _⟩ => ⟨S1x640000, .i32⟩
  | .hbm, ⟨10, _⟩ => ⟨S640000, .i32⟩
  | .hbm, ⟨11, _⟩ => ⟨S740000, .i32⟩
  | .hbm, ⟨12, _⟩ => ⟨S_, .f32⟩
  | .hbm, ⟨13, _⟩ => ⟨S740000, .f32⟩
  | .hbm, ⟨14, _⟩ => ⟨S_, .f32⟩
  | .hbm, ⟨15, _⟩ => ⟨S100000, .f32⟩
  | .hbm, ⟨16, _⟩ => ⟨S740000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S740000, .i32⟩
  | .hbm, ⟨28, _⟩ => ⟨S740000, .i1⟩
  | .hbm, ⟨29, _⟩ => ⟨S_, .i32⟩
  | .hbm, ⟨30, _⟩ => ⟨S740000, .i32⟩
  | .hbm, ⟨31, _⟩ => ⟨S740000, .i32⟩
  | .hbm, ⟨32, _⟩ => ⟨S740000, .i32⟩
  | .hbm, ⟨33, _⟩ => ⟨S740000x1, .i32⟩
  | .hbm, ⟨34, _⟩ => ⟨S740000, .f32⟩
  | .hbm, ⟨35, _⟩ => ⟨S_, .i32⟩
  | .hbm, ⟨36, _⟩ => ⟨S740000, .i32⟩
  | .hbm, ⟨37, _⟩ => ⟨S740000, .i1⟩
  | .hbm, ⟨38, _⟩ => ⟨S_, .i32⟩
  | .hbm, ⟨39, _⟩ => ⟨S740000, .i32⟩
  | .hbm, ⟨40, _⟩ => ⟨S740000, .i32⟩
  | .hbm, ⟨41, _⟩ => ⟨S740000, .i32⟩
  | .hbm, ⟨42, _⟩ => ⟨S740000x1, .i32⟩
  | .hbm, ⟨43, _⟩ => ⟨S740000, .f32⟩
  | .hbm, ⟨44, _⟩ => ⟨S740000, .f32⟩
  | .hbm, ⟨45, _⟩ => ⟨S_, .i32⟩
  | .hbm, ⟨46, _⟩ => ⟨S740000, .i32⟩
  | .hbm, ⟨47, _⟩ => ⟨S740000, .i1⟩
  | .hbm, ⟨48, _⟩ => ⟨S_, .i32⟩
  | .hbm, ⟨49, _⟩ => ⟨S740000, .i32⟩
  | .hbm, ⟨50, _⟩ => ⟨S740000, .i32⟩
  | .hbm, ⟨51, _⟩ => ⟨S740000, .i32⟩
  | .hbm, ⟨52, _⟩ => ⟨S740000x1, .i32⟩
  | .hbm, ⟨53, _⟩ => ⟨S740000x128, .f32⟩
  | .hbm, ⟨54, _⟩ => ⟨S740000x1, .f32⟩
  | .hbm, ⟨55, _⟩ => ⟨S740000x128, .f32⟩
  | .hbm, ⟨56, _⟩ => ⟨S740000x128, .f32⟩
  | .hbm, ⟨57, _⟩ => ⟨S_, .f32⟩
  | .hbm, ⟨58, _⟩ => ⟨S100000x128, .f32⟩
  | .hbm, ⟨59, _⟩ => ⟨S740000x1, .i32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S128x128, .f32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S100000x128, .f32⟩
  | .hbm, ⟨78, _⟩ => ⟨S100000x128, .f32⟩
  | .hbm, ⟨79, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_cst_12 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S100000x128_S128x128_S100000x128_1_0_0_1_n_n_wf : DotDims.WF S100000x128 S128x128 S100000x128 [1] [0] [0] [1] [] []

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Blend.lean ====
/-
  The layer's dense half as ONE function of four arrays, over the extended reals.

  A graph-convolution layer with an initial residual and an identity mapping first propagates the
  node features over the graph (a gather, a scale and a scatter-add: the array `P` below), and then
  mixes, row by row,

      s   = (1 - α) · P + α · X0                      (the support: propagated features and the layer-0 features)
      out = (1 - β) · s + β · (s · Wᵀ + b)            (identity mapping: the support and its linear image)

  with α = 0.1 and β = log(1/4 + 1), each coefficient the binary32 word both programs print. Written
  index by index, at row `r` and channel `q`:

      out[r, q] = c₃ · s[r, q] + c₄ · ((Σ_k s[r, k] · W[q, k]) + b[q]),   s[r, k] = c₁ · P[r, k] + c₂ · X0[r, k].

  Nothing here is evaluated: the four words stay words, the same on both sides of the claim.
-/
import Idealize.ShloMosaic.PureOps.Ideal
import Idealize.ShloMosaic.Lib.ValueIdx

noncomputable section

namespace Cert.Blend

open Idealize.ShloMosaic

/-- Node features: 100000 rows of 128 channels. -/
abbrev SN : Shape := ⟨2, ![100000, 128]⟩
/-- The square weight, `W[out, in]`. -/
abbrev SW : Shape := ⟨2, ![128, 128]⟩
/-- The bias, one entry per output channel. -/
abbrev Sb : Shape := ⟨1, ![128]⟩

/-- `1 - α`, as the binary32 word of 0.9. -/
abbrev c₁ : EReal := Ideal.ofBits .f32 0x3F666666#32
/-- `α`, as the binary32 word of 0.1. -/
abbrev c₂ : EReal := Ideal.ofBits .f32 0x3DCCCCCD#32
/-- `1 - β`, as the binary32 word of 1 - log 1.25. -/
abbrev c₃ : EReal := Ideal.ofBits .f32 0x3F46E010#32
/-- `β`, as the binary32 word of log 1.25. -/
abbrev c₄ : EReal := Ideal.ofBits .f32 0x3E647FBE#32

/-- Row `i₀`, channel `k`: the entry of a feature array that the contraction pairs with `W[i₁, k]`. -/
abbrev rowAt (i : SN.Idx) (k : Fin 128) : SN.Idx := fun a => match a with
  | ⟨0, _⟩ => ⟨(i 0).val, (i 0).isLt⟩
  | ⟨1, _⟩ => ⟨k.val, k.isLt⟩

/-- `W[i₁, k]`: output channel `i₁`, input channel `k`. -/
abbrev weightAt (i : SN.Idx) (k : Fin 128) : SW.Idx := fun a => match a with
  | ⟨0, _⟩ => ⟨(i 1).val, (i 1).isLt⟩
  | ⟨1, _⟩ => ⟨k.val, k.isLt⟩

/-- `b[i₁]`. -/
abbrev biasAt (i : SN.Idx) : Sb.Idx := fun a => match a with
  | ⟨0, _⟩ => ⟨(i 1).val, (i 1).isLt⟩

/-- The support `(1 - α) · P + α · X0` at an index. -/
def support (P X0 : SN.Idx → EReal) (i : SN.Idx) : EReal := c₁ * P i + c₂ * X0 i

/-- The layer's output: `(1 - β) · s + β · (s · Wᵀ + b)` at an index, the product with `Wᵀ` one sum over the input channel. -/
def blend (P X0 : SN.Idx → EReal) (W : SW.Idx → EReal) (b : Sb.Idx → EReal) : SN.Idx → EReal := fun i =>
  c₃ * support P X0 i + c₄ * ((∑ k : Fin 128, support P X0 (rowAt i k) * W (weightAt i k)) + b (biasAt i))

end Cert.Blend

end
-- ==== Proof.RefBlend.lean ====
/-
  The reference's result is the layer's function `Cert.Blend.blend` of four arrays: the propagated features
  (whatever the gather / scatter-add chain made of the node features and the edge list: it is carried as ONE
  array and never opened), the layer-0 features, the weight and the bias.

  The reference computes `s = 0.9 · P + 0.1 · X0`, contracts `s` with the transposed weight over the input channel,
  adds the bias broadcast down the rows, and mixes `(1 - β) · s + β · (…)`. Read at an index `i`, each step is
  pointwise except three re-layings: the transpose reads `W[i₁, k]` for the product's `[k, i₁]`, and the bias passes
  through a 1 × 128 row before it is broadcast; the product is the sum over `k` of `s[i₀, k] · W[i₁, k]`.
-/
import proofs.«177474_j936302871062_1_alg».proof.Proof.RefRead
import proofs.«177474_j936302871062_1_alg».proof.Proof.Blend

noncomputable section

namespace Cert.ReferenceIdeal.RefBlend

open Cert.ReferenceIdeal Cert.ReferenceIdeal.Gen Cert.ReferenceIdeal.ReadP Cert.Blend
open Idealize.ShloMosaic Idealize.ShloMosaic.TcCoe Idealize.SL.Sem

/-- The left factor of the product at `(i, k)` sits at row `i₀`, channel `k`. -/
theorem left_index (i : S100000x128.Idx) (k : Fin 128) : lidx_main_v49 i k = rowAt i k := rfl

/-- The right factor, read back through the transpose, is `W[i₁, k]`. -/
theorem right_index (i : S100000x128.Idx) (k : Fin 128) : idx_main_v48 (ridx_main_v49 i k) = weightAt i k :=
  funext fun a => Fin.ext (by
    match a with
    | ⟨0, _⟩ => rfl
    | ⟨1, _⟩ => rfl)

/-- The bias, through its 1 × 128 row and the broadcast down the rows, is `b[i₁]`. -/
theorem bias_index (i : S100000x128.Idx) : idx_main_v50 (idx_main_v51 i) = biasAt i :=
  funext fun a => Fin.ext (by
    match a with
    | ⟨0, _⟩ => rfl)

/-- The support, at any index: `c₁ · P + c₂ · X0` with `P` the propagated array. -/
theorem support_apply (x0 x1 : (⟨S100000x128, .f32⟩ : BufTy).Contents (Elt Ideal)) (x4 : (⟨S2x640000, .i32⟩ : BufTy).Contents (Elt Ideal)) (j : S100000x128.Idx) :
    val_main_v47 (F := Ideal) x0 x1 x4 j = support (val_main_v42 (F := Ideal) x0 x4) x1 j := by
  rw [val_main_v47_apply, val_main_v44_apply, val_main_v46_apply, val_main_v43_apply, val_main_v45_apply,
    val_main_cst_9_apply, val_main_cst_10_apply]
  rfl

/-- THE REFERENCE'S RESULT, as a function of its arguments, is the layer's function of the propagated array, the
    layer-0 features, the weight and the bias. -/
theorem result_eq (x0 x1 : (⟨S100000x128, .f32⟩ : BufTy).Contents (Elt Ideal)) (x2 : (⟨S128x128, .f32⟩ : BufTy).Contents (Elt Ideal))
    (x3 : (⟨S128, .f32⟩ : BufTy).Contents (Elt Ideal)) (x4 : (⟨S2x640000, .i32⟩ : BufTy).Contents (Elt Ideal)) :
    val_main_v57 (F := Ideal) x0 x1 x2 x3 x4 = blend (val_main_v42 (F := Ideal) x0 x4) x1 x2 x3 := by
  funext i
  rw [val_main_v57_apply, val_main_v54_apply, val_main_v56_apply, val_main_v52_apply, val_main_v49_apply,
    val_main_v51_apply, val_main_v50_apply, val_main_v53_apply, val_main_v55_apply, val_main_cst_11_apply,
    val_main_cst_12_apply, bias_index, support_apply]
  simp only [val_main_v48_apply, left_index, right_index, support_apply]
  rfl

end Cert.ReferenceIdeal.RefBlend

end
-- ==== Proof.KernelPay.lean ====
/-
  What the kernel's body stores, read at one entry of the 4000-row block it works on.

  The body loads a block `p` of propagated features and the matching block `x` of layer-0 features
  (4000 rows of 128 channels each), the transposed weight `wt` (so `wt[k, q] = W[q, k]`) and the bias as a
  1 × 128 row `bb`, and stores

      c₃ · s + c₄ · (s · wt + bb),   s = c₁ · p + c₂ · x.

  Over the extended reals the narrowing of `s` and `wt` to bfloat16 before the product is the identity, and a
  matrix product into a zero accumulator is the plain sum over the contracted channel. So at row `y₀` and channel `y₁`
  of the block the stored value is

      c₃ · s[y₀, y₁] + c₄ · ((Σ_k s[y₀, k] · wt[k, y₁]) + bb[0, y₁]).
-/
import proofs.«177474_j936302871062_1_alg».proof.Proof.Gen.KernelIdeal.Skeleton
import proofs.«177474_j936302871062_1_alg».proof.Proof.Blend
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Cert.Blend Idealize.ShloMosaic Idealize.ShloMosaic.TcCoe Idealize.SL.Sem

/-- Row `y₀`, channel `k` of a feature block. -/
abbrev blkRow (y : S4000x128.Idx) (k : Fin 128) : S4000x128.Idx := fun a => match a with
  | ⟨0, _⟩ => ⟨(y 0).val, (y 0).isLt⟩
  | ⟨1, _⟩ => ⟨k.val, k.isLt⟩

/-- Entry `[k, y₁]` of the transposed weight. -/
abbrev blkWt (y : S4000x128.Idx) (k : Fin 128) : S128x128.Idx := fun a => match a with
  | ⟨0, _⟩ => ⟨k.val, k.isLt⟩
  | ⟨1, _⟩ => ⟨(y 1).val, (y 1).isLt⟩

/-- Entry `[0, y₁]` of the bias row. -/
abbrev blkBias (y : S4000x128.Idx) : S1x128.Idx := fun a => match a with
  | ⟨0, _⟩ => ⟨0, Nat.one_pos⟩
  | ⟨1, _⟩ => ⟨(y 1).val, (y 1).isLt⟩

/-! ## The product's operand indices: rows × contraction, contraction × columns -/

theorem lhs_axis0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_axis1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_axis0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_axis1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The block product into the zero accumulator, at an entry: the sum over the contracted channel `k` of
    `l[y₀, k] · r[k, y₁]`. -/
theorem product_apply (l : FVec Ideal S4000x128 .bf16) (r : FVec Ideal S128x128 .bf16) (y : S4000x128.Idx) :
    matmul dot_S4000x128_S128x128_S4000x128_1_0_0_1_n_n none l r (constant S4000x128 .f32 0x00000000#32) y = ∑ k : Fin 128, l (blkRow y k) * r (blkWt y k) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx y ((ValueIdx.contrEquiv1 dot_S4000x128_S128x128_S4000x128_1_0_0_1_n_n 128 rfl rfl).symm k) = blkRow y k := funext fun a => Fin.ext (by
    match a with
    | ⟨0, _⟩ => exact lhs_axis0 _ _
    | ⟨1, _⟩ => exact (lhs_axis1 _ _).trans hk)
  have er : dot_S4000x128_S128x128_S4000x128_1_0_0_1_n_n.rhsIdx y ((ValueIdx.contrEquiv1 dot_S4000x128_S128x128_S4000x128_1_0_0_1_n_n 128 rfl rfl).symm k) = blkWt y k := funext fun a => Fin.ext (by
    match a with
    | ⟨0, _⟩ => exact (rhs_axis0 _ _).trans hk
    | ⟨1, _⟩ => exact rhs_axis1 _ _)
  rw [el, er]

/-- The bias row broadcast down the block's 4000 rows reads, at any row, the row's one entry per channel. -/
theorem bias_apply (v : FVec Ideal S1x128 .f32) (y : S4000x128.Idx) :
    broadcastTo S4000x128 v broadcasts_S1x128_S4000x128 y = v (blkBias y) :=
  broadcastTo_apply v broadcasts_S1x128_S4000x128 y (blkBias y) (fun a => match a with
    | ⟨0, _⟩ => by show 0 = if (1 : Nat) = 1 then 0 else _; rw [if_pos rfl]
    | ⟨1, _⟩ => by show (y 1).val = if (128 : Nat) = 1 then 0 else (y 1).val; rw [if_neg (by decide)])

/-- THE STORED VALUE at an entry of the block, as a term of the four loaded blocks. -/
theorem stored_apply (p x : Vec Ideal S4000x128 .f32) (wt : Vec Ideal S128x128 .f32) (bb : Vec Ideal S1x128 .f32) (y : S4000x128.Idx) :
    k0_pay1 (F := Ideal) p x wt bb y
      = c₃ * (c₁ * p y + c₂ * x y)
        + c₄ * ((∑ k : Fin 128, (c₁ * p (blkRow y k) + c₂ * x (blkRow y k)) * wt (blkWt y k)) + bb (blkBias y)) := by
  unfold k0_pay1
  simp only [shapeCast_self]
  simp only [ValueIdx.addf_apply, ValueIdx.mulf_apply]
  rw [product_apply, bias_apply]
  rfl

/-- THE STORED VALUE IS THE LAYER'S FUNCTION at the array index `i` the block entry `y` sits at, once each loaded block is
    known to hold the matching entries of the four arrays: the block's row `y₀` is the array's row `i₀`, the transposed
    weight's `[k, y₁]` is `W[i₁, k]`, the bias row's `[0, y₁]` is `b[i₁]`. -/
theorem stored_eq_blend (P X0 : SN.Idx → EReal) (W : SW.Idx → EReal) (b : Sb.Idx → EReal)
    (p x : Vec Ideal S4000x128 .f32) (wt : Vec Ideal S128x128 .f32) (bb : Vec Ideal S1x128 .f32)
    (y : S4000x128.Idx) (i : SN.Idx)
    (hpy : p y = P i) (hxy : x y = X0 i)
    (hp : ∀ k : Fin 128, p (blkRow y k) = P (rowAt i k)) (hx : ∀ k : Fin 128, x (blkRow y k) = X0 (rowAt i k))
    (hw : ∀ k : Fin 128, wt (blkWt y k) = W (weightAt i k)) (hb : bb (blkBias y) = b (biasAt i)) :
    k0_pay1 (F := Ideal) p x wt bb y = blend P X0 W b i := by
  rw [stored_apply, hpy, hxy, hb]
  simp only [hp, hx, hw]
  rfl

end Cert.KernelIdeal.Pay

end
-- ==== Proof.KernelHost.lean ====
/-
  The three arrays the host prepares for the kernel, as terms of the program's arguments.

  Before the one kernel call the program (i) propagates the node features over the graph — the same fifty-four
  gather / scale / scatter-add operations, word for word, that the reference begins with, so the array is carried
  here as the reference's own function of the node features and the edge list and is never opened —, (ii) transposes
  the weight, and (iii) re-lays the bias as a 1 × 128 row. The kernel's first, third and fourth windows read these.
-/
import proofs.«177474_j936302871062_1_alg».proof.Proof.Gen.KernelIdeal.Frame
import proofs.«177474_j936302871062_1_alg».proof.Proof.RefRead
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxRecDepth 8192 in
set_option maxHeartbeats 4000000 in
/-- The propagated features the kernel's first window reads are the reference's propagated features: one chain of
    host operations applied to the same node features and edge list. -/
theorem propagated_eq (c : Dev nD) :
    (V m c (Pipeline.arrRef spec0 0) : (⟨S100000x128, .f32⟩ : BufTy).Contents (Elt F))
      = Cert.ReferenceIdeal.ReadP.val_main_v42 (F := F) (m ((c : Thread nD τ).loc main_arg0)) (m ((c : Thread nD τ).loc main_arg4)) := by
  dsimp only [V]
  show StableHlo.after _ _ (Proc.devRef .tc main_v42) = _
  simp only [hostOps0, hostOps0_1, hostOps0_2, List.flatten_cons, List.flatten_nil, List.append_nil, List.cons_append,
    List.nil_append]
  after_results_simp <;> rfl

set_option maxRecDepth 8192 in
set_option maxHeartbeats 4000000 in
/-- The kernel's third window reads the weight transposed. -/
theorem weightT_eq (c : Dev nD) :
    (V m c (Pipeline.arrRef spec0 2) : (⟨S128x128, .f32⟩ : BufTy).Contents (Elt F))
      = transpose S128x128 [1, 0] (m ((c : Thread nD τ).loc main_arg2)) transposes_S128x128_S128x128_1_0 := by
  dsimp only [V]
  show StableHlo.after _ _ (Proc.devRef .tc main_v43) = _
  simp only [hostOps0, hostOps0_1, hostOps0_2, List.flatten_cons, List.flatten_nil, List.append_nil, List.cons_append,
    List.nil_append]
  after_results_simp <;> rfl

set_option maxRecDepth 8192 in
set_option maxHeartbeats 4000000 in
/-- The kernel's fourth window reads the bias re-laid as a 1 × 128 row. -/
theorem biasRow_eq (c : Dev nD) :
    (V m c (Pipeline.arrRef spec0 3) : (⟨S1x128, .f32⟩ : BufTy).Contents (Elt F))
      = shapeCast S1x128 (m ((c : Thread nD τ).loc main_arg3)) shapeCasts_S128_S1x128 := by
  dsimp only [V]
  show StableHlo.after _ _ (Proc.devRef .tc main_v44) = _
  simp only [hostOps0, hostOps0_1, hostOps0_2, List.flatten_cons, List.flatten_nil, List.append_nil, List.cons_append,
    List.nil_append]
  after_results_simp <;> rfl

/-- The kernel's second window reads the layer-0 features as launched: no host operation writes them. -/
theorem features0_eq (c : Dev nD) :
    (V m c (Pipeline.arrRef spec0 1) : (⟨S100000x128, .f32⟩ : BufTy).Contents (Elt F)) = m ((c : Thread nD τ).loc main_arg1) :=
  V_main_arg1 m c

end Cert.KernelIdeal.Host

end
-- ==== Proof.KernelFinal.lean ====
/-
  The kernel's result array, whole: the layer's function `Cert.Blend.blend` of the propagated features, the layer-0
  features, the weight and the bias.

  The kernel walks the 100000 rows in 25 blocks of 4000. At block `t` it reads rows `4000·t … 4000·t + 3999` of the
  propagated features and of the layer-0 features, the whole transposed weight and the whole bias row, and writes rows
  `4000·t … 4000·t + 3999` of the result. An entry `y` of block `t` sits at array index `(4000·t + y₀, y₁)`; the value
  stored there depends on row `y₀` of the two feature blocks, which is row `4000·t + y₀` of the arrays, on the weight
  read back through its transpose, and on the bias read back through its 1 × 128 row. So what each block writes is the
  block of one whole-array function, the 25 blocks tile the array, and the array ends holding that function.
-/
import proofs.«177474_j936302871062_1_alg».proof.Proof.Gen.KernelIdeal.Value
import proofs.«177474_j936302871062_1_alg».proof.Proof.KernelPay
import proofs.«177474_j936302871062_1_alg».proof.Proof.KernelHost
import proofs.«177474_j936302871062_1_alg».proof.Proof.Blend
import Idealize.ShloMosaic.Lib.Pipeline.Value

noncomputable section

namespace Cert.KernelIdeal.Final

open Cert.KernelIdeal Cert.KernelIdeal.Gen Cert.KernelIdeal.Pay Cert.KernelIdeal.Host Cert.Blend
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The propagated features: the host chain both programs share, of the node features and the edge list. It is named, and
    kept closed, because nothing below depends on what the chain computes. -/
@[irreducible] def propagated (c : Dev nD) : SN.Idx → EReal :=
  Cert.ReferenceIdeal.ReadP.val_main_v42 (F := Ideal) (m ((c : Thread nD τ).loc main_arg0)) (m ((c : Thread nD τ).loc main_arg4))

/-- The layer's output, of the program's arguments. -/
abbrev result (c : Dev nD) : SN.Idx → EReal :=
  blend (propagated m c) (m ((c : Thread nD τ).loc main_arg1)) (m ((c : Thread nD τ).loc main_arg2)) (m ((c : Thread nD τ).loc main_arg3))

/-- The layer's output with the propagated features spelled as the shared chain of the node features and the edge list:
    the form the reference's result is read down to. -/
theorem result_eq (c : Dev nD) :
    result m c = blend (Cert.ReferenceIdeal.ReadP.val_main_v42 (F := Ideal) (m ((c : Thread nD τ).loc main_arg0)) (m ((c : Thread nD τ).loc main_arg4)))
      (m ((c : Thread nD τ).loc main_arg1)) (m ((c : Thread nD τ).loc main_arg2)) (m ((c : Thread nD τ).loc main_arg3)) := by
  unfold result propagated
  rfl

/-! ## Where the windows' blocks sit -/

/-- The index maps, decided over the 25 grid points: the two feature windows move down the rows with the output
    window and stay at column block 0; the weight and the bias stay at their one block. -/
theorem block_indices : ∀ t : Fin cfg0.N, win0_0.index t (0 : Fin 2) = win0_4.index t (0 : Fin 2)
    ∧ win0_0.index t (1 : Fin 2) = 0
    ∧ win0_1.index t (0 : Fin 2) = win0_4.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 24 :=
  (by decide +kernel : ∀ t : Fin grid0.N, _)

/-- Every one of the 25 row blocks is some grid point's. -/
theorem block_onto : ∀ q : Fin 25, ∃ t : Fin cfg0.N, win0_4.index t = ![q.val, 0] :=
  (by decide +kernel : ∀ q : Fin 25, ∃ t : Fin grid0.N, win0_4.index t = ![q.val, 0])

/-- The array index of entry `y` of the output's block at point `t`. -/
abbrev at4 (t : Fin cfg0.N) (y : S4000x128.Idx) : S100000x128.Idx := ((cfg0.win 4).blk t).view.emb y

/-- The propagated-features window's block sits where the output's does. -/
theorem emb0_eq (t : Fin cfg0.N) (y : S4000x128.Idx) : ((cfg0.win 0).blk t).view.emb y = at4 t y := by
  obtain ⟨e0, e1, -, -, -, -, -, -, e8, -⟩ := block_indices t
  funext a; apply Fin.ext
  match a with
  | ⟨0, _⟩ => show win0_0.index t (0 : Fin 2) * 4000 + 1 * (y 0).val = win0_4.index t (0 : Fin 2) * 4000 + 1 * (y 0).val; omega
  | ⟨1, _⟩ => show win0_0.index t (1 : Fin 2) * 128 + 1 * (y 1).val = win0_4.index t (1 : Fin 2) * 128 + 1 * (y 1).val; omega

/-- So does the layer-0 features window's. -/
theorem emb1_eq (t : Fin cfg0.N) (y : S4000x128.Idx) : ((cfg0.win 1).blk t).view.emb y = at4 t y := by
  obtain ⟨-, -, e2, e3, -, -, -, -, e8, -⟩ := block_indices t
  funext a; apply Fin.ext
  match a with
  | ⟨0, _⟩ => show win0_1.index t (0 : Fin 2) * 4000 + 1 * (y 0).val = win0_4.index t (0 : Fin 2) * 4000 + 1 * (y 0).val; omega
  | ⟨1, _⟩ => show win0_1.index t (1 : Fin 2) * 128 + 1 * (y 1).val = win0_4.index t (1 : Fin 2) * 128 + 1 * (y 1).val; omega

/-- Row `y₀`, channel `k` of the block is row `(at4 t y)₀`, channel `k` of the array. -/
theorem at4_row (t : Fin cfg0.N) (y : S4000x128.Idx) (k : Fin 128) : at4 t (blkRow y k) = rowAt (at4 t y) k := by
  obtain ⟨-, -, -, -, -, -, -, -, e8, -⟩ := block_indices t
  funext a; apply Fin.ext
  match a with
  | ⟨0, _⟩ => show win0_4.index t (0 : Fin 2) * 4000 + 1 * (y 0).val = win0_4.index t (0 : Fin 2) * 4000 + 1 * (y 0).val; rfl
  | ⟨1, _⟩ => show win0_4.index t (1 : Fin 2) * 128 + 1 * k.val = k.val; omega

/-! ## Each input block, read at an entry

A window's block is its array read through the block's rectangle. That step is stated once per window for ANY contents `X`
of the array, and only then used at the array the host prepared. -/

theorem read_block0 (c : Dev nD) (t : Fin cfg0.N) (X : Buf (Elt Ideal) ((c : Thread nD τ).loc (Pipeline.arrRef spec0 0))) (y : S4000x128.Idx) :
    (((cfg0.win 0).blk t).view.read (Elt Ideal) X : Vec Ideal S4000x128 .f32) y = (X : S100000x128.Idx → EReal) (((cfg0.win 0).blk t).view.emb y) := rfl
theorem read_block1 (c : Dev nD) (t : Fin cfg0.N) (X : Buf (Elt Ideal) ((c : Thread nD τ).loc (Pipeline.arrRef spec0 1))) (y : S4000x128.Idx) :
    (((cfg0.win 1).blk t).view.read (Elt Ideal) X : Vec Ideal S4000x128 .f32) y = (X : S100000x128.Idx → EReal) (((cfg0.win 1).blk t).view.emb y) := rfl
theorem read_block2 (c : Dev nD) (t : Fin cfg0.N) (X : Buf (Elt Ideal) ((c : Thread nD τ).loc (Pipeline.arrRef spec0 2))) (z : S128x128.Idx) :
    (((cfg0.win 2).blk t).view.read (Elt Ideal) X : Vec Ideal S128x128 .f32) z = (X : S128x128.Idx → EReal) (((cfg0.win 2).blk t).view.emb z) := rfl
theorem read_block3 (c : Dev nD) (t : Fin cfg0.N) (X : Buf (Elt Ideal) ((c : Thread nD τ).loc (Pipeline.arrRef spec0 3))) (z : S1x128.Idx) :
    (((cfg0.win 3).blk t).view.read (Elt Ideal) X : Vec Ideal S1x128 .f32) z = (X : S1x128.Idx → EReal) (((cfg0.win 3).blk t).view.emb z) := rfl

/-- The array the first window stages is the propagated features. -/
theorem propagated_arr (c : Dev nD) :
    (V m c (Pipeline.arrRef spec0 0) : (⟨S100000x128, .f32⟩ : BufTy).Contents (Elt Ideal)) = propagated m c := by
  unfold propagated
  exact propagated_eq m c

/-- The propagated-features block at an entry is the propagated array at the entry's array index. -/
theorem propagated_block (c : Dev nD) (t : Fin cfg0.N) (y : S4000x128.Idx) :
    (iblk m c 0 t : Vec Ideal S4000x128 .f32) y = propagated m c (at4 t y) := by
  unfold iblk
  rw [read_block0, emb0_eq]
  exact congrFun (propagated_arr m c) (at4 t y)

/-- The layer-0 features block at an entry is the argument at the entry's array index. -/
theorem features0_block (c : Dev nD) (t : Fin cfg0.N) (y : S4000x128.Idx) :
    (iblk m c 1 t : Vec Ideal S4000x128 .f32) y = ((m ((c : Thread nD τ).loc main_arg1)) : SN.Idx → EReal) (at4 t y) := by
  unfold iblk
  rw [read_block1, emb1_eq]
  exact congrFun (features0_eq m c) (at4 t y)

/-- The transposed weight's `[k, y₁]` is `W[i₁, k]` at the entry's array index `i`. -/
theorem weight_block (c : Dev nD) (t : Fin cfg0.N) (y : S4000x128.Idx) (k : Fin 128) :
    (iblk m c 2 t : Vec Ideal S128x128 .f32) (blkWt y k) = ((m ((c : Thread nD τ).loc main_arg2)) : SW.Idx → EReal) (weightAt (at4 t y) k) := by
  obtain ⟨-, -, -, -, e4, e5, -, -, e8, -⟩ := block_indices t
  unfold iblk
  rw [read_block2]
  refine (congrFun (weightT_eq m c) _).trans ?_
  refine transpose_apply [1, 0] _ transposes_S128x128_S128x128_1_0 _ (weightAt (at4 t y) k) (fun b => ?_)
  match b with
  | ⟨0, _⟩ => show k.val = win0_2.index t (0 : Fin 2) * 128 + 1 * k.val; omega
  | ⟨1, _⟩ => show win0_4.index t (1 : Fin 2) * 128 + 1 * (y 1).val = win0_2.index t (1 : Fin 2) * 128 + 1 * (y 1).val; omega

/-- The bias row's `[0, y₁]` is `b[i₁]` at the entry's array index `i`. -/
theorem bias_block (c : Dev nD) (t : Fin cfg0.N) (y : S4000x128.Idx) :
    (iblk m c 3 t : Vec Ideal S1x128 .f32) (blkBias y) = ((m ((c : Thread nD τ).loc main_arg3)) : Sb.Idx → EReal) (biasAt (at4 t y)) := by
  obtain ⟨-, -, -, -, -, -, e6, e7, e8, -⟩ := block_indices t
  unfold iblk
  rw [read_block3]
  refine (congrFun (biasRow_eq m c) _).trans ?_
  refine (shapeCast_addUnit_apply ![128] _ shapeCasts_S128_S1x128 _).trans (congrArg _ (funext fun a => Fin.ext ?_))
  match a with
  | ⟨0, _⟩ => show win0_3.index t (1 : Fin 2) * 128 + 1 * (y 1).val = win0_4.index t (1 : Fin 2) * 128 + 1 * (y 1).val; omega

/-! ## What each point writes back, the cover, the array -/

/-- For ANY four blocks and ANY whole-array function `G`: if the body's stored value at every entry `y` is `G` at the
    entry's array index, then what the point writes back is `G` read through the point's block. -/
theorem flushed_of (t : Fin cfg0.N) (G : S100000x128.Idx → EReal)
    (p x : Vec Ideal S4000x128 .f32) (wt : Vec Ideal S128x128 .f32) (bb : Vec Ideal S1x128 .f32)
    (h : ∀ y : S4000x128.Idx, k0_pay1 (F := Ideal) p x wt bb y = G (at4 t y)) :
    (cfg0.win 4).cut (grid0.coords t) (out0_4 p x wt bb) = ((cfg0.win 4).blk t).view.read (Elt Ideal) G := by
  unfold out0_4
  rw [View.canon_unit_zero zero_offsets]
  simp only [View.ld_unit_zero (S := S4000x128) zero_offsets, View.ld_unit_zero (S := S128x128) zero_offsets,
    View.ld_unit_zero (S := S1x128) zero_offsets]
  funext j
  exact h _

/-- WHAT POINT `t` WRITES BACK is block `t` of the layer's output. -/
theorem flushed_eq (c : Dev nD) (t : Fin cfg0.N) :
    (dats m 0 c).flushed 4 t = ((cfg0.win 4).blk t).view.read (Elt Ideal) (result m c) := by
  rw [Cert.KernelIdeal.Value.flushed4]
  exact flushed_of t (result m c) (iblk m c 0 t) (iblk m c 1 t) (iblk m c 2 t) (iblk m c 3 t) fun y =>
    stored_eq_blend (propagated m c) (m ((c : Thread nD τ).loc main_arg1)) (m ((c : Thread nD τ).loc main_arg2)) (m ((c : Thread nD τ).loc main_arg3))
      (iblk m c 0 t) (iblk m c 1 t) (iblk m c 2 t) (iblk m c 3 t) y (at4 t y)
      (propagated_block m c t y) (features0_block m c t y)
      (fun k => (propagated_block m c t (blkRow y k)).trans (congrArg _ (at4_row t y k)))
      (fun k => (features0_block m c t (blkRow y k)).trans (congrArg _ (at4_row t y k)))
      (fun k => weight_block m c t y k) (bias_block m c t y)

/-- An index of the array is in point `t`'s block iff each coordinate is in the block's range on its axis. -/
theorem mem_block (t : Fin cfg0.N) (i : S100000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v45).slice (win0_4.rect t)).set ↔ _
  rw [View.set_slice_whole, Rect.mem_set_unit]
  exact Iff.rfl

/-- The 25 blocks tile the array: row `r` is in block `r / 4000`. -/
theorem covered (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ := block_onto ⟨(i 0).val / 4000, by omega⟩
  have q0 : win0_4.index t (0 : Fin 2) = (i 0).val / 4000 := congrFun ht 0
  have q1 : win0_4.index t (1 : Fin 2) = 0 := congrFun ht 1
  refine ⟨t, flush0_4 t, ?_⟩
  rw [mem_block]
  intro a
  match a with
  | ⟨0, _⟩ => show win0_4.index t (0 : Fin 2) * 4000 ≤ (i 0).val ∧ (i 0).val < win0_4.index t (0 : Fin 2) * 4000 + 4000; omega
  | ⟨1, _⟩ => show win0_4.index t (1 : Fin 2) * 128 ≤ (i 1).val ∧ (i 1).val < win0_4.index t (1 : Fin 2) * 128 + 128; omega

/-- THE ARRAY after the run is the layer's output. -/
theorem final (c : Dev nD) : (dats m 0 c).arrAt 4 cfg0.N = result m c :=
  (dats m 0 c).arrAt_eq_of_cover 4 (result m c) (fun t _ => flushed_eq m c t) covered

/-- The kernel program's run, read: the result array at the layer's output, the arguments unchanged. -/
theorem run : θ_run defs (onTc (τ := τ) (main (F := Ideal))) ⟨m, fun _ => 0, ρ⟩ fun r => ∀ c : Dev nD,
      r.2.mem ((c : Thread nD τ).loc main_v45) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Final

end
-- ==== Proof.lean ====
/-
  A graph-convolution layer with an initial residual and an identity mapping, its dense half in one Pallas kernel, against
  the same layer in plain jax.numpy — equal over the extended reals.

  Both programs begin with the same propagation of the node features over the graph (self-loops added, symmetric
  degree normalisation, a gather, a scale and a scatter-add): fifty-four host operations, identical word for word, so
  their result is carried as ONE array `P` and never opened. What differs is the dense half,

      s = (1 - α) · P + α · X0,      out = (1 - β) · s + β · (s · Wᵀ + b),

  which the reference computes on whole arrays and the kernel in 25 blocks of 4000 rows, narrowing `s` and `Wᵀ` to
  bfloat16 before a matrix product into a zero accumulator. Over the extended reals a change of float format is the
  identity and both products are the plain sum `Σ_k s[r, k] · W[q, k]`; the four coefficients are the same binary32
  words on both sides, in the same places. So both results are `Cert.Blend.blend P X0 W b`, index by index, with no
  algebra beyond reading each operation at an index: the precondition's finiteness is never used.

  `Blend` states that function; `RefBlend` reads the reference's operations down to it; `KernelPay` reads the
  kernel body's stored value at a block entry; `KernelHost` names the three arrays the host hands the kernel;
  `KernelFinal` lays the 25 blocks out as the whole array. The frames of the two kernel programs are the generated
  ones; the reference's is its run with the result dropped; the ideal pass rewrote nothing, so there is nothing to preserve.
-/
import proofs.«177474_j936302871062_1_alg».proof.Defs
import proofs.«177474_j936302871062_1_alg».proof.Proof.Gen.Kernel
import proofs.«177474_j936302871062_1_alg».proof.Proof.Gen.Kernel.Frame
import proofs.«177474_j936302871062_1_alg».proof.Proof.Gen.KernelIdeal
import proofs.«177474_j936302871062_1_alg».proof.Proof.Gen.KernelIdeal.Frame
import proofs.«177474_j936302871062_1_alg».proof.Proof.Gen.KernelIdeal.Value
import proofs.«177474_j936302871062_1_alg».proof.Proof.Gen.ReferenceIdeal
import proofs.«177474_j936302871062_1_alg».proof.Proof.Gen.Pre_finite_inputs
import proofs.«177474_j936302871062_1_alg».proof.Proof.RefRun
import proofs.«177474_j936302871062_1_alg».proof.Proof.RefRead
import proofs.«177474_j936302871062_1_alg».proof.Proof.RefBlend
import proofs.«177474_j936302871062_1_alg».proof.Proof.KernelFinal
import Idealize.ShloMosaic.Adequacy
import Idealize.ShloMosaic.Init

noncomputable section

namespace Cert.Proof

open Idealize.ShloMosaic Idealize.SL.Sem

/-- The word-level kernel program runs, faults nowhere and leaves its arguments as they were. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation of the kernel program. -/
theorem preserves : Cert.preserves_Kernel_KernelIdeal := trivial

/-- From memories that agree on the five arguments both programs end with the layer's output
    `blend P X0 W b`, `P` the shared propagation of the node features over the edge list. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v57_eq, Cert.ReferenceIdeal.RefBlend.result_eq,
    (hagree c).1, (hagree c).2.1, (hagree c).2.2.1, (hagree c).2.2.2.1, (hagree c).2.2.2.2]
  exact (Cert.KernelIdeal.Final.result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
